-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16777216 : Shape := ⟨1, ![16777216]⟩
abbrev S1048576 : Shape := ⟨1, ![1048576]⟩
abbrev S_ : Shape := ⟨0, ![]⟩

class Facts : Prop where
  bcast_S_S16777216 : S_.BroadcastsInDim S16777216 (![] : Fin 0 → Fin S16777216.rank)
  reducesTo_S16777216_S_d0 : S16777216.ReducesTo [0] S_
  h_S_ : 0 < S_.numel

variable [Facts]

def fn {F : FTy → Type} [FloatOps F] (main_arg0 : FVec F S16777216 .f32) (main_arg1 : IVec S16777216 32) (main_arg2 : IVec S1048576 32) : IVec S_ 1 :=
  let main_v0 : FVec F S16777216 .f32 := Host.absf main_arg0
  let main_cst : FVec F S_ .f32 := constant S_ .f32 0x7F800000#32
  let main_v1 : FVec F S16777216 .f32 := broadcastInDim S16777216 ![] bcast_S_S16777216 main_cst
  let main_v2 : IVec S16777216 1 := cmpf .olt main_v0 main_v1
  let main_c : IVec S_ 1 := constantI S_ 1 1#1
  let main_v3 : IVec S_ 1 := (fun x v => Host.reduce IntOp.andi x v reducesTo_S16777216_S_d0 h_S_) main_v2 main_c
  main_v3
-- ==== Kernel.lean ====
abbrev S16777216 : Shape := ⟨1, ![16777216]⟩
abbrev S1048576 : Shape := ⟨1, ![1048576]⟩
abbrev S_ : Shape := ⟨0, ![]⟩
abbrev S16777216x1 : Shape := ⟨2, ![16777216, 1]⟩
abbrev S131072x128 : Shape := ⟨2, ![131072, 128]⟩
abbrev S2x8x128 : Shape := ⟨3, ![2, 8, 128]⟩
abbrev S32x128 : Shape := ⟨2, ![32, 128]⟩
abbrev S1x8x128 : Shape := ⟨3, ![1, 8, 128]⟩
abbrev S8x128 : Shape := ⟨2, ![8, 128]⟩
abbrev S1x8x1 : Shape := ⟨3, ![1, 8, 1]⟩
abbrev S1x1x128 : Shape := ⟨3, ![1, 1, 128]⟩
abbrev S32x1x128 : Shape := ⟨3, ![32, 1, 128]⟩
abbrev S32x8x128 : Shape := ⟨3, ![32, 8, 128]⟩
abbrev S32x128x1 : Shape := ⟨3, ![32, 128, 1]⟩
abbrev S32x128x128 : Shape := ⟨3, ![32, 128, 128]⟩
abbrev S1024 : Shape := ⟨1, ![1024]⟩
abbrev S1000 : Shape := ⟨1, ![1000]⟩

abbrev nBuf : Space → Nat
  | .hbm => 22
  | .vmem => 7
  | .smem => 0
  | _ => 0

abbrev bufTy : (tb : Table) → Fin (tcTables nBuf tb) → BufTy
  | .hbm, ⟨0, _⟩ => ⟨S16777216, .f32⟩
  | .hbm, ⟨1, _⟩ => ⟨S16777216, .i32⟩
  | .hbm, ⟨2, _⟩ => ⟨S1048576, .i32⟩
  | .hbm, ⟨3, _⟩ => ⟨S_, .i32⟩
  | .hbm, ⟨4, _⟩ => ⟨S16777216, .i32⟩
  | .hbm, ⟨5, _⟩ => ⟨S16777216, .i1⟩
  | .hbm, ⟨6, _⟩ => ⟨S_, .i32⟩
  | .hbm, ⟨7, _⟩ => ⟨S16777216, .i32⟩
  | .hbm, ⟨8, _⟩ => ⟨S16777216, .i32⟩
  | .hbm, ⟨9, _⟩ => ⟨S16777216, .i32⟩
  | .hbm, ⟨10, _⟩ => ⟨S16777216x1, .i32⟩
  | .hbm, ⟨11, _⟩ => ⟨S16777216, .i32⟩
  | .hbm, ⟨12, _⟩ => ⟨S131072x128, .f32⟩
  | .hbm, ⟨13, _⟩ => ⟨S131072x128, .i32⟩
  | .hbm, ⟨14, _⟩ => ⟨S2x8x128, .f32⟩
  | .hbm, ⟨15, _⟩ => ⟨S_, .f32⟩
  | .hbm, ⟨16, _⟩ => ⟨S8x128, .f32⟩
  | .hbm, ⟨17, _⟩ => ⟨S1024, .f32⟩
  | .hbm, ⟨18, _⟩ => ⟨S1000, .f32⟩
  | .hbm, ⟨19, _⟩ => ⟨S_, .f32⟩
  | .hbm, ⟨20, _⟩ => ⟨S1000, .f32⟩
  | .hbm, ⟨21, _⟩ => ⟨S1000, .f32⟩
  | .local _ .vmem, ⟨0, _⟩ => ⟨S32x128, .f32⟩
  | .local _ .vmem, ⟨1, _⟩ => ⟨S32x128, .f32⟩
  | .local _ .vmem, ⟨2, _⟩ => ⟨S32x128, .i32⟩
  | .local _ .vmem, ⟨3, _⟩ => ⟨S32x128, .i32⟩
  | .local _ .vmem, ⟨4, _⟩ => ⟨S1x8x128, .f32⟩
  | .local _ .vmem, ⟨5, _⟩ => ⟨S1x8x128, .f32⟩
  | .local _ .vmem, ⟨6, _⟩ => ⟨S8x128, .f32⟩
  | _, _ => ⟨S16777216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2048], ![false, false]⟩

def k0_cond2 (i : grid0.Coords) : BitVec 1 :=
  let arg1 : BitVec 32 := BitVec.ofNat 32 (i 1).val
  let c2047_i32 : BitVec 32 := 2047#32
  let v37 : BitVec 1 := Scalar.cmpi .eq arg1 c2047_i32
  let v38 : BitVec 32 := Scalar.extui v37
  let c0_i32_10 : BitVec 32 := 0#32
  let v39 : BitVec 1 := Scalar.cmpi .ne v38 c0_i32_10
  v39

def cc0_transform_0 (i : grid0.Coords) : Fin 2 → Nat :=
  let arg0 : BitVec 32 := BitVec.ofNat 32 (i 0).val
  let arg1 : BitVec 32 := BitVec.ofNat 32 (i 1).val
  let c2048_i32 : BitVec 32 := 2048#32
  let v0 : BitVec 32 := Scalar.muli arg0 c2048_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c2048_i32 : BitVec 32 := 2048#32
  let v0 : BitVec 32 := Scalar.muli arg0 c2048_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  bcast_S_S16777216 : S_.BroadcastsInDim S16777216 (![] : Fin 0 → Fin S16777216.rank)
  bcast_S16777216_S16777216x1_0 : S16777216.BroadcastsInDim S16777216x1 (![0] : Fin 1 → Fin S16777216x1.rank)
  shapeCasts_S16777216_S131072x128 : S16777216.ShapeCasts S131072x128
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S32x128_S32x128_0_0 : ∀ a, (![0, 0] : Fin 2 → Nat) a + S32x128.size a ≤ S32x128.size a
  h_S32x128 : 0 < S32x128.numel
  shapeCasts_S32x128_S32x128 : S32x128.ShapeCasts S32x128
  iota_S1x8x1_d1_w32 : S1x8x1.Iotas .tc 32 [1]
  iota_S1x1x128_d2_w32 : S1x1x128.Iotas .tc 32 [2]
  shapeCasts_S32x128_S32x1x128 : S32x128.ShapeCasts S32x1x128
  broadcasts_S32x1x128_S32x8x128 : S32x1x128.Broadcasts S32x8x128
  broadcasts_S1x8x1_S32x8x128 : S1x8x1.Broadcasts S32x8x128
  shapeCasts_S32x1x128_S32x1x128 : S32x1x128.ShapeCasts S32x1x128
  bitsLt_bf16_f32 : FTy.bits .bf16 < FTy.bits .f32
  shapeCasts_S32x128_S32x128x1 : S32x128.ShapeCasts S32x128x1
  broadcasts_S32x128x1_S32x128x128 : S32x128x1.Broadcasts S32x128x128
  broadcasts_S1x1x128_S32x128x128 : S1x1x128.Broadcasts S32x128x128
  natLt_1_32 : 1 < 32
  reduces_S32x8x128_S8x128 : S32x8x128.Reduces [0] S8x128
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  reducesTo_S2x8x128_S8x128_d0 : S2x8x128.ReducesTo [0] S8x128
  h_S_ : 0 < S_.numel
  shapeCasts_S8x128_S1024 : S8x128.ShapeCasts S1024
  slices_S1024_S1000_0 : S1024.Slices ![0] S1000
  bcast_S_S1000 : S_.BroadcastsInDim S1000 (![] : Fin 0 → Fin S1000.rank)
  gather_S1048576_S16777216x1_S16777216_n_0_n_n_0_1_1_wf : GatherDims.WF S1048576 S16777216x1 S16777216 [] [0] [] [0] [] 1 ![1]
  dot_S32x8x128_S32x128x128_S32x8x128_2_1_1_2_0_0_wf : DotDims.WF S32x8x128 S32x128x128 S32x8x128 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x128.size a ≤ S131072x128.size a
  hwx0_0 : ∀ i : grid0.Coords, EltTy.bits .f32 = 32 ∨ (Rect.block (s := S131072x128) S32x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x128.size a ≤ S131072x128.size a
  hwx0_1 : ∀ i : grid0.Coords, EltTy.bits .i32 = 32 ∨ (Rect.block (s := S131072x128) S32x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S2x8x128.size a
  hwx0_2 : ∀ i : grid0.Coords, EltTy.bits .f32 = 32 ∨ (Rect.block (s := S2x8x128) S1x8x128.size (cc0_transform_2 i) (hinb0_2 i)).WholeWords (EltTy.packing .f32)

variable [Facts₀]

def gather_S1048576_S16777216x1_S16777216_n_0_n_n_0_1_1 : GatherDims S1048576 S16777216x1 S16777216 where
  offsetDims := []
  collapsedSliceDims := [0]
  operandBatchingDims := []
  startIndicesBatchingDims := []
  startIndexMap := [0]
  indexVectorDim := 1
  sliceSizes := ![1]
  wf := gather_S1048576_S16777216x1_S16777216_n_0_n_n_0_1_1_wf
def dot_S32x8x128_S32x128x128_S32x8x128_2_1_1_2_0_0 : DotDims S32x8x128 S32x128x128 S32x8x128 where
  lhsContracting := [2]
  rhsContracting := [1]
  lhsNonContracting := [1]
  rhsNonContracting := [2]
  lhsBatch := [0]
  rhsBatch := [0]
  wf := dot_S32x8x128_S32x128x128_S32x8x128_2_1_1_2_0_0_wf

abbrev win0_0 : Pipeline.Window sig grid0 :=
  Pipeline.Window.ofSpec (Memref.whole main_v7) S32x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S32x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16777216 : Shape := ⟨1, ![16777216]⟩
abbrev S1048576 : Shape := ⟨1, ![1048576]⟩
abbrev S_ : Shape := ⟨0, ![]⟩
abbrev S16777216x1 : Shape := ⟨2, ![16777216, 1]⟩
abbrev S1000 : Shape := ⟨1, ![1000]⟩

abbrev nBuf : Space → Nat
  | .hbm => 19
  | .vmem => 0
  | .smem => 0
  | _ => 0

abbrev bufTy : (tb : Table) → Fin (tcTables nBuf tb) → BufTy
  | .hbm, ⟨0, _⟩ => ⟨S16777216, .f32⟩
  | .hbm, ⟨1, _⟩ => ⟨S16777216, .i32⟩
  | .hbm, ⟨2, _⟩ => ⟨S1048576, .i32⟩
  | .hbm, ⟨3, _⟩ => ⟨S_, .i32⟩
  | .hbm, ⟨4, _⟩ => ⟨S16777216, .i32⟩
  | .hbm, ⟨5, _⟩ => ⟨S16777216, .i1⟩
  | .hbm, ⟨6, _⟩ => ⟨S_, .i32⟩
  | .hbm, ⟨7, _⟩ => ⟨S16777216, .i32⟩
  | .hbm, ⟨8, _⟩ => ⟨S16777216, .i32⟩
  | .hbm, ⟨9, _⟩ => ⟨S16777216, .i32⟩
  | .hbm, ⟨10, _⟩ => ⟨S16777216x1, .i32⟩
  | .hbm, ⟨11, _⟩ => ⟨S16777216, .i32⟩
  | .hbm, ⟨12, _⟩ => ⟨S_, .f32⟩
  | .hbm, ⟨13, _⟩ => ⟨S1000, .f32⟩
  | .hbm, ⟨14, _⟩ => ⟨S16777216x1, .i32⟩
  | .hbm, ⟨15, _⟩ => ⟨S1000, .f32⟩
  | .hbm, ⟨16, _⟩ => ⟨S_, .f32⟩
  | .hbm, ⟨17, _⟩ => ⟨S1000, .f32⟩
  | .hbm, ⟨18, _⟩ => ⟨S1000, .f32⟩
  | _, _ => ⟨S16777216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩

abbrev nD : Nat := 1
abbrev τ : Topo := Topo.v7x

variable {F : FTy → Type} [FloatOps F]

class Facts₀ : Prop where
  bcast_S_S16777216 : S_.BroadcastsInDim S16777216 (![] : Fin 0 → Fin S16777216.rank)
  bcast_S16777216_S16777216x1_0 : S16777216.BroadcastsInDim S16777216x1 (![0] : Fin 1 → Fin S16777216x1.rank)
  bcast_S_S1000 : S_.BroadcastsInDim S1000 (![] : Fin 0 → Fin S1000.rank)
  gather_S1048576_S16777216x1_S16777216_n_0_n_n_0_1_1_wf : GatherDims.WF S1048576 S16777216x1 S16777216 [] [0] [] [0] [] 1 ![1]
  scatter_S1000_S16777216x1_S16777216_n_0_0_1_wf : ScatterDims.WF S1000 S16777216x1 S16777216 [] [0] [0] 1

variable [Facts₀]

def gather_S1048576_S16777216x1_S16777216_n_0_n_n_0_1_1 : GatherDims S1048576 S16777216x1 S16777216 where
  offsetDims := []
  collapsedSliceDims := [0]
  operandBatchingDims := []
  startIndicesBatchingDims := []
  startIndexMap := [0]
  indexVectorDim := 1
  sliceSizes := ![1]
  wf := gather_S1048576_S16777216x1_S16777216_n_0_n_n_0_1_1_wf
def scatter_S1000_S16777216x1_S16777216_n_0_0_1 : ScatterDims S1000 S16777216x1 S16777216 where
  updateWindowDims := []
  insertedWindowDims := [0]
  scatterDimsToOperandDims := [0]
  indexVectorDim := 1
  wf := scatter_S1000_S16777216x1_S16777216_n_0_0_1_wf

class Facts : Prop extends Facts₀ where

variable [Facts]
-- ==== Proof.Pieces.lean ====
/-
  What each control case of the histogram body leaves behind, as payloads of the blocks it loaded.
  The first point of a core's run (case A) zeroes the accumulator and then adds the block's
  contribution to the zero it has just stored; an inner point (case B) adds the block's contribution
  to what the point before left; the last point (case C) does the same and copies the new accumulator
  to the output block.
-/
import proofs.«410184_j70437463655137_2_alg».proof.Proof.Gen.KernelIdeal.Frame
import Idealize.ShloMosaic.Lib.Pipeline.Value

set_option maxRecDepth 16384

noncomputable section
namespace Cert.Hist
open Idealize.ShloMosaic Idealize.ShloMosaic.TcCoe Idealize.ShloMosaic.Tactic
open Idealize.SL Idealize.SL.Sem
open Cert.KernelIdeal Cert.KernelIdeal.Gen

variable {F : FTy → Type} [FloatOps F]

theorem hz2 : (![0, 0] : Fin 2 → Nat) = fun _ => 0 := by
  funext a; match a with | ⟨0, _⟩ => rfl | ⟨1, _⟩ => rfl

theorem hz3 : (![0, 0, 0] : Fin 3 → Nat) = fun _ => 0 := by
  funext a; match a with | ⟨0, _⟩ => rfl | ⟨1, _⟩ => rfl | ⟨2, _⟩ => rfl

/-- Case A: the accumulator ends at the block's contribution added to the freshly stored zero. -/
theorem sout_A (c : Dev nD) (i : grid0.Coords) (arg2 : Memref sig .tc .vmem S32x128 .f32) (harg2 : arg2.IsWhole) (arg3 : Memref sig .tc .vmem S32x128 .i32) (harg3 : arg3.IsWhole) (arg4 : Memref sig .tc .vmem S1x8x128 .f32) (harg4 : arg4.IsWhole) (arg5 : Memref sig .tc .vmem S8x128 .f32) (harg5 : arg5.IsWhole) (hc0 : cond0_0 i) (hc1 : ¬cond0_1 i)
    (x0 : Vec F S32x128 .f32) (x1 : Vec F S32x128 .i32) :
    sout0_A_0 c i arg2 harg2 arg3 harg3 arg4 harg4 arg5 harg5 hc0 hc1 x0 x1 = k0_pay3 x0 x1 (k0_pay2 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S8x128) hz2, View.readCov_unit_zero (S := S8x128) _ hz2]
  simp only [View.readAt_eq_ld, harg2.read_unread, harg3.read_unread, harg5.read_unread, View.ld_unit_zero (S := S32x128) hz2, View.ld_unit_zero (S := S8x128) hz2]

/-- Case B: the accumulator ends at the block's contribution added to what the point before left. -/
theorem sout_B (c : Dev nD) (i : grid0.Coords) (arg2 : Memref sig .tc .vmem S32x128 .f32) (harg2 : arg2.IsWhole) (arg3 : Memref sig .tc .vmem S32x128 .i32) (harg3 : arg3.IsWhole) (arg4 : Memref sig .tc .vmem S1x8x128 .f32) (harg4 : arg4.IsWhole) (arg5 : Memref sig .tc .vmem S8x128 .f32) (harg5 : arg5.IsWhole) (hc0 : ¬cond0_0 i) (hc1 : ¬cond0_1 i)
    (x0 : Vec F S32x128 .f32) (x1 : Vec F S32x128 .i32) (xs0 : Vec F S8x128 .f32) :
    sout0_B_0 c i arg2 harg2 arg3 harg3 arg4 harg4 arg5 harg5 hc0 hc1 x0 x1 xs0 = k0_pay3 x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero (S := S8x128) hz2]
  simp only [View.readAt_eq_ld, harg2.read_unread, harg3.read_unread, harg5.read_unread, View.ld_unit_zero (S := S32x128) hz2, View.ld_unit_zero (S := S8x128) hz2]

/-- Case C: the accumulator as in case B. -/
theorem sout_C (c : Dev nD) (i : grid0.Coords) (arg2 : Memref sig .tc .vmem S32x128 .f32) (harg2 : arg2.IsWhole) (arg3 : Memref sig .tc .vmem S32x128 .i32) (harg3 : arg3.IsWhole) (arg4 : Memref sig .tc .vmem S1x8x128 .f32) (harg4 : arg4.IsWhole) (arg5 : Memref sig .tc .vmem S8x128 .f32) (harg5 : arg5.IsWhole) (hc0 : ¬cond0_0 i) (hc1 : cond0_1 i)
    (x0 : Vec F S32x128 .f32) (x1 : Vec F S32x128 .i32) (xs0 : Vec F S8x128 .f32) :
    sout0_C_0 c i arg2 harg2 arg3 harg3 arg4 harg4 arg5 harg5 hc0 hc1 x0 x1 xs0 = k0_pay3 x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero (S := S8x128) hz2]
  simp only [View.readAt_eq_ld, harg2.read_unread, harg3.read_unread, harg5.read_unread, View.ld_unit_zero (S := S32x128) hz2, View.ld_unit_zero (S := S8x128) hz2]

/-- Case C: the output block is the new accumulator under a leading unit axis. -/
theorem out_C (c : Dev nD) (i : grid0.Coords) (arg2 : Memref sig .tc .vmem S32x128 .f32) (harg2 : arg2.IsWhole) (arg3 : Memref sig .tc .vmem S32x128 .i32) (harg3 : arg3.IsWhole) (arg4 : Memref sig .tc .vmem S1x8x128 .f32) (harg4 : arg4.IsWhole) (arg5 : Memref sig .tc .vmem S8x128 .f32) (harg5 : arg5.IsWhole) (hc0 : ¬cond0_0 i) (hc1 : cond0_1 i)
    (x0 : Vec F S32x128 .f32) (x1 : Vec F S32x128 .i32) (xs0 : Vec F S8x128 .f32) :
    out0_C_2 c i arg2 harg2 arg3 harg3 arg4 harg4 arg5 harg5 hc0 hc1 x0 x1 xs0 = k0_pay1 (k0_pay3 x0 x1 xs0) := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero (S := S1x8x128) hz3, View.readCov_unit_zero (S := S8x128) _ hz2]
  simp only [View.readAt_eq_ld, harg2.read_unread, harg3.read_unread, harg5.read_unread, View.ld_unit_zero (S := S32x128) hz2, View.ld_unit_zero (S := S8x128) hz2]

end Cert.Hist
end
-- ==== Proof.ClassBits.lean ====
/-
  A 32-bit class word `c` read as a signed integer equals `128 * h + j` (with `h < 8`, `j < 128`)
  exactly when its arithmetic shift right by 7 is `h` and its low seven bits are `j`: the high part
  of a non-negative number below 1024 is its quotient by 128, the low part its remainder, and a
  negative word or one from 1024 on has a high part outside `0 … 7`.
-/
import Idealize.ShloMosaic.PureOps.Float

namespace Cert.Hist

open Idealize.ShloMosaic

/-- The equality test yields the one-bit word `1` exactly when its two operands are equal. -/
theorem cmpi_eq_one {w : Nat} (x y : BitVec w) : IntOp.cmpi .eq x y = 1#1 ↔ x = y := by
  show BitVec.ofBool (x == y) = 1#1 ↔ x = y
  rw [← beq_iff_eq (a := x)]
  generalize (x == y) = b
  cases b <;> decide

/-- Read signed, the sign-extending shift right by 7 is the floor quotient by `128 = 2 ^ 7`
    (the amount 7 is below the width, so the shift is the ordinary arithmetic one). -/
theorem shrsi_seven (c : BitVec 32) : (IntOp.shrsi .vector c 7#32).toInt = c.toInt / 128 := by
  have e : IntOp.shrsi .vector c 7#32 = c.sshiftRight' 7#32 := by
    unfold IntOp.shrsi
    rw [if_pos (by decide)]
  rw [e, BitVec.toInt_sshiftRight', Int.shiftRight_eq_div_pow]
  rfl

/-- Read unsigned, masking with `127 = 2 ^ 7 - 1` is the remainder modulo `128`. -/
theorem andi_127 (c : BitVec 32) : (IntOp.andi c 127#32).toNat = c.toNat % 128 := by
  unfold IntOp.andi
  rw [BitVec.toNat_and]
  exact Nat.and_two_pow_sub_one_eq_mod c.toNat 7

/-- The two lane tests of the histogram body — the word shifted right by 7 (sign-extending) equals
    `h`, the word masked with 127 equals `j` — hold together exactly when the word, read signed, is
    the class `128 * h + j`. -/
theorem split_iff (c : BitVec 32) (h : Fin 8) (j : Fin 128) :
    (IntOp.cmpi .eq (IntOp.shrsi .vector c 7#32) (BitVec.ofNat 32 h.val) = 1#1
      ∧ IntOp.cmpi .eq (IntOp.andi c 127#32) (BitVec.ofNat 32 j.val) = 1#1)
    ↔ c.toInt = ((h.val * 128 + j.val : ℕ) : ℤ) := by
  obtain ⟨h, hh⟩ := h
  obtain ⟨j, hj⟩ := j
  -- the first test compares signed values, the second unsigned ones: the statement becomes
  -- `c.toInt / 128 = h ∧ c.toNat % 128 = j` once the small literals are read back
  rw [cmpi_eq_one, cmpi_eq_one, ← BitVec.toInt_inj, ← BitVec.toNat_inj, shrsi_seven, andi_127,
    BitVec.toInt_ofNat', BitVec.toNat_ofNat]
  have hc := BitVec.toInt_eq_toNat_cond c
  have hlt := c.isLt
  simp only [Fin.val_mk]
  -- `h < 8` lies in the balanced range of residues modulo `2 ^ 32`, so it is its own residue
  have hb : ((h : ℕ) : ℤ).bmod (2 ^ 32) = (h : ℤ) :=
    Int.bmod_eq_of_le_mul_two (by omega) (by omega)
  rw [hb]
  -- the signed value is the unsigned one, less `2 ^ 32` from `2 ^ 31` on; the rest is linear
  -- arithmetic with quotient and remainder by 128
  omega

end Cert.Hist
-- ==== Proof.Payload.lean ====
/-
  What one grid point adds to the accumulator, read at a class slot. The body routes each score of
  its 32 x 128 block to the slot `(h, j)` whose high part matches the class word shifted right by 7
  and whose low part matches the word masked with 127: a selection of the score (else zero) times a
  one-hot factor, contracted over the 128 lanes and summed over the 32 rows. At slot `(h, j)` this is
  the previous accumulator entry plus the sum of the scores of the block whose class word, read
  signed, is `128 * h + j`.
-/
import proofs.«410184_j70437463655137_2_alg».proof.Proof.Gen.KernelIdeal.Skeleton
import proofs.«410184_j70437463655137_2_alg».proof.Proof.ClassBits
import Idealize.ShloMosaic.PureOps.Ideal.Laws
import Idealize.ShloMosaic.Lib.ValueIdx
import Idealize.ShloMosaic.Lib.ValueLayout
import Idealize.ShloMosaic.Lib.Pipeline.Value

namespace Cert.Hist

open Idealize.ShloMosaic Idealize.ShloMosaic.ValueIdx Cert.KernelIdeal Cert.KernelIdeal.Gen

/-! ## Layout reads at literal shapes -/

/-- A 32 x 128 array viewed as 32 x 1 x 128 and repeated along the middle axis reads (r, l) at (r, h, l). -/
theorem rep_mid_apply {α : Type} (x : S32x128.Idx → α) (hc : S32x128.ShapeCasts S32x1x128)
    (hb : S32x1x128.Broadcasts S32x8x128) (r : Fin 32) (h : Fin 8) (l : Fin 128) :
    broadcastTo S32x8x128 (shapeCast S32x1x128 x hc) hb (ix3 r h l) = x (ix2 r l) := by
  refine (broadcastTo_apply _ hb (ix3 r h l) (ix3 r (0 : Fin 1) l) (fun a => ?_)).trans ?_
  · match a with
    | ⟨0, _⟩ => rfl
    | ⟨1, _⟩ => rfl
    | ⟨2, _⟩ => rfl
  · refine shapeCast_apply x hc (ix3 r (0 : Fin 1) l) (ix2 r l) ?_
    rw [Shape.rowMajor_val_two, Shape.rowMajor_val_three]
    show r.val * 128 + l.val = (r.val * 1 + (0 : Fin 1).val) * 128 + l.val
    simp

/-- A 32 x 128 array viewed as 32 x 128 x 1 and repeated along the last axis reads (r, l) at (r, l, j). -/
theorem rep_last_apply {α : Type} (x : S32x128.Idx → α) (hc : S32x128.ShapeCasts S32x128x1)
    (hb : S32x128x1.Broadcasts S32x128x128) (r : Fin 32) (l j : Fin 128) :
    broadcastTo S32x128x128 (shapeCast S32x128x1 x hc) hb (ix3 r l j) = x (ix2 r l) := by
  refine (broadcastTo_apply _ hb (ix3 r l j) (ix3 r l (0 : Fin 1)) (fun a => ?_)).trans ?_
  · match a with
    | ⟨0, _⟩ => rfl
    | ⟨1, _⟩ => rfl
    | ⟨2, _⟩ => rfl
  · refine shapeCast_apply x hc (ix3 r l (0 : Fin 1)) (ix2 r l) ?_
    rw [Shape.rowMajor_val_two, Shape.rowMajor_val_three]
    show r.val * 128 + l.val = (r.val * 128 + l.val) * 1 + (0 : Fin 1).val
    simp

/-- The counter along the middle axis, repeated over rows and lanes, reads h at (r, h, l). -/
theorem iota_mid_apply (hi : S1x8x1.Iotas .tc 32 [1]) (hb : S1x8x1.Broadcasts S32x8x128)
    (r : Fin 32) (h : Fin 8) (l : Fin 128) :
    broadcastTo S32x8x128 (iota .tc S1x8x1 32 [1] hi) hb (ix3 r h l) = BitVec.ofNat 32 h.val := by
  refine (broadcastTo_apply _ hb (ix3 r h l) (ix3 (0 : Fin 1) h (0 : Fin 1)) (fun a => ?_)).trans ?_
  · match a with
    | ⟨0, _⟩ => rfl
    | ⟨1, _⟩ => rfl
    | ⟨2, _⟩ => rfl
  · exact iota_single_apply .tc S1x8x1 32 1 hi _

/-- The counter along the last axis, repeated over rows and lanes, reads j at (r, l, j). -/
theorem iota_last_apply (hi : S1x1x128.Iotas .tc 32 [2]) (hb : S1x1x128.Broadcasts S32x128x128)
    (r : Fin 32) (l j : Fin 128) :
    broadcastTo S32x128x128 (iota .tc S1x1x128 32 [2] hi) hb (ix3 r l j) = BitVec.ofNat 32 j.val := by
  refine (broadcastTo_apply _ hb (ix3 r l j) (ix3 (0 : Fin 1) (0 : Fin 1) j) (fun a => ?_)).trans ?_
  · match a with
    | ⟨0, _⟩ => rfl
    | ⟨1, _⟩ => rfl
    | ⟨2, _⟩ => rfl
  · exact iota_single_apply .tc S1x1x128 32 2 hi _

/-! ## The batched contraction's operand indices, and the reduced axis -/

/-- The kernel's contraction: batch axis 0 on both sides, the left operand contracts its axis 2, the
    right operand its axis 1. -/
abbrev hdot : DotDims S32x8x128 S32x128x128 S32x8x128 := dot_S32x8x128_S32x128x128_S32x8x128_2_1_1_2_0_0

theorem lhs_hdot_0 (o : S32x8x128.Idx) (k : hdot.contr.Idx) : (hdot.lhsIdx o k 0).val = (o 0).val := rfl
theorem lhs_hdot_1 (o : S32x8x128.Idx) (k : hdot.contr.Idx) : (hdot.lhsIdx o k 1).val = (o 1).val := rfl
theorem lhs_hdot_2 (o : S32x8x128.Idx) (k : hdot.contr.Idx) :
    (hdot.lhsIdx o k 2).val = (k ⟨0, by decide⟩).val :=
  hdot.lhsIdx_val_of_single rfl o k
theorem rhs_hdot_0 (o : S32x8x128.Idx) (k : hdot.contr.Idx) : (hdot.rhsIdx o k 0).val = (o 0).val := rfl
theorem rhs_hdot_1 (o : S32x8x128.Idx) (k : hdot.contr.Idx) :
    (hdot.rhsIdx o k 1).val = (k ⟨0, by decide⟩).val :=
  hdot.rhsIdx_val_of_single rfl o k
theorem rhs_hdot_2 (o : S32x8x128.Idx) (k : hdot.contr.Idx) : (hdot.rhsIdx o k 2).val = (o 2).val := rfl

/-- At output (r, h, j) and lane l the left operand is read at (r, h, l). -/
theorem lhsIdx_at (r : Fin 32) (h : Fin 8) (j l : Fin 128) :
    hdot.lhsIdx (ix3 r h j) ((contrEquiv1 hdot 128 rfl rfl).symm l) = ix3 r h l := by
  funext a
  match a with
  | ⟨0, _⟩ => exact Fin.ext (lhs_hdot_0 _ _)
  | ⟨1, _⟩ => exact Fin.ext (lhs_hdot_1 _ _)
  | ⟨2, _⟩ => exact Fin.ext ((lhs_hdot_2 _ _).trans (contrEquiv1_symm_val hdot 128 rfl rfl l))

/-- At output (r, h, j) and lane l the right operand is read at (r, l, j). -/
theorem rhsIdx_at (r : Fin 32) (h : Fin 8) (j l : Fin 128) :
    hdot.rhsIdx (ix3 r h j) ((contrEquiv1 hdot 128 rfl rfl).symm l) = ix3 r l j := by
  funext a
  match a with
  | ⟨0, _⟩ => exact Fin.ext (rhs_hdot_0 _ _)
  | ⟨1, _⟩ => exact Fin.ext ((rhs_hdot_1 _ _).trans (contrEquiv1_symm_val hdot 128 rfl rfl l))
  | ⟨2, _⟩ => exact Fin.ext (rhs_hdot_2 _ _)

/-- The slot (h, j) with row r put back on the summed axis is (r, h, j). -/
theorem lift_at (red : S32x8x128.Reduces [0] S8x128) (h : Fin 8) (j : Fin 128) (r : Fin 32) :
    red.lift (ix2 h j) r = ix3 r h j := by
  funext a
  match a with
  | ⟨0, _⟩ => exact Fin.ext rfl
  | ⟨1, _⟩ => exact Fin.ext rfl
  | ⟨2, _⟩ => exact Fin.ext rfl

/-! ## One summand -/

/-- A score selected by the high-part test (else zero) times the one-hot factor of the low-part test is
    the score when the class word, read signed, is 128 * h + j, and zero otherwise. -/
theorem summand (c : BitVec 32) (a : EReal) (h : Fin 8) (j : Fin 128) :
    Scalar.select (IntOp.cmpi .eq (IntOp.shrsi .vector c 7#32) (BitVec.ofNat 32 h.val)) a
        (Ideal.ofBits .f32 0x00000000#32)
      * ((((IntOp.cmpi .eq (IntOp.andi c 127#32) (BitVec.ofNat 32 j.val)).setWidth 32).toInt : ℝ) : EReal)
      = if c.toInt = ((h.val * 128 + j.val : ℕ) : ℤ) then a else 0 := by
  have one : ((((1#1 : BitVec 1).setWidth 32).toInt : ℝ) : EReal) = 1 := by
    rw [show ((1#1 : BitVec 1).setWidth 32).toInt = 1 by decide]; simp
  have zero : ((((0#1 : BitVec 1).setWidth 32).toInt : ℝ) : EReal) = 0 := by
    rw [show ((0#1 : BitVec 1).setWidth 32).toInt = 0 by decide]; simp
  by_cases hc : c.toInt = ((h.val * 128 + j.val : ℕ) : ℤ)
  · obtain ⟨h1, h2⟩ := (split_iff c h j).mpr hc
    rw [if_pos hc, h1, h2, one, mul_one]
    rfl
  · rw [if_neg hc]
    rcases BitVec.eq_zero_or_eq_one (IntOp.cmpi .eq (IntOp.shrsi .vector c 7#32) (BitVec.ofNat 32 h.val)) with h1 | h1
    · rw [h1]
      show Ideal.ofBits .f32 0x00000000#32 * _ = 0
      rw [Ideal.ofBits_zero_f32, zero_mul]
    · rcases BitVec.eq_zero_or_eq_one (IntOp.cmpi .eq (IntOp.andi c 127#32) (BitVec.ofNat 32 j.val)) with h2 | h2
      · rw [h2, zero, mul_zero]
      · exact absurd ((split_iff c h j).mp ⟨h1, h2⟩) hc

/-! ## Word operations at an index -/

theorem cmpi_at {s : Shape} {w : Nat} (p : CmpIPredicate) (x y : IVec s w) (i : s.Idx) :
    cmpi p x y i = IntOp.cmpi p (x i) (y i) := rfl
theorem shrsi_at {s : Shape} {w : Nat} (x y : IVec s w) (i : s.Idx) :
    shrsi x y i = IntOp.shrsi .vector (x i) (y i) := rfl
theorem andi_at {s : Shape} {w : Nat} (x y : IVec s w) (i : s.Idx) :
    andi x y i = IntOp.andi (x i) (y i) := rfl

/-! ## The three payloads -/

/-- The accumulating store's payload at slot `(h, j)`: the accumulator loaded before it, plus the
    block's scores of class `128 * h + j`. -/
theorem pay3_apply (x0 : Vec Ideal S32x128 .f32) (x1 : Vec Ideal S32x128 .i32) (xs : Vec Ideal S8x128 .f32)
    (h : Fin 8) (j : Fin 128) :
    k0_pay3 (F := Ideal) x0 x1 xs (ix2 h j)
      = xs (ix2 h j) + ∑ r : Fin 32, ∑ l : Fin 128,
          (if (x1 (ix2 r l)).toInt = ((h.val * 128 + j.val : ℕ) : ℤ) then x0 (ix2 r l) else 0) := by
  unfold k0_pay3
  simp only [shapeCast_self]
  rw [addf_apply]
  congr 1
  refine (Ideal.multiReduction_add_single _ _ _ _ _ (ix2 h j)).trans ?_
  refine Finset.sum_congr rfl fun (r : Fin 32) _ => ?_
  rw [lift_at]
  refine (Ideal.matmul_constant_zero_apply hdot none _ _ _).trans ?_
  refine (Equiv.sum_comp (contrEquiv1 hdot 128 rfl rfl).symm _).symm.trans ?_
  refine Finset.sum_congr rfl fun l _ => ?_
  rw [lhsIdx_at, rhsIdx_at]
  simp only [truncf_apply, select_apply, sitofp_apply, extui_apply, cmpi_at, rep_mid_apply, rep_last_apply,
    shrsi_at, andi_at, broadcast_apply]
  rw [iota_mid_apply, iota_last_apply]
  exact summand (x1 (ix2 r l)) (x0 (ix2 r l)) h j

/-- The resetting store's payload is zero everywhere. -/
theorem pay2_apply (y : S8x128.Idx) : k0_pay2 (F := Ideal) y = 0 := by
  unfold k0_pay2
  rw [shapeCast_self]
  exact Ideal.ofBits_zero_f32

/-- The output store's payload is the accumulator under a leading unit axis. -/
theorem pay1_apply (v : Vec Ideal S8x128 .f32) (h : Fin 8) (j : Fin 128) :
    k0_pay1 (F := Ideal) v (ix3 (0 : Fin 1) h j) = v (ix2 h j) := by
  unfold k0_pay1
  refine shapeCast_apply v _ (ix3 (0 : Fin 1) h j) (ix2 h j) ?_
  rw [Shape.rowMajor_val_two, Shape.rowMajor_val_three]
  show h.val * 128 + j.val = ((0 : Fin 1).val * 8 + h.val) * 128 + j.val
  simp

end Cert.Hist
-- ==== Proof.SumSplit.lean ====
/-
  Re-indexing a sum over a product range: a sum over the `m * n` naturals below `m * n`
  is the iterated sum over a quotient `a < m` and a remainder `b < n`, at `a * n + b`.
-/
import Mathlib.Algebra.BigOperators.Fin
import Mathlib.Logic.Equiv.Fin.Basic

namespace Cert.Hist

/-- Every natural below `m * n` is `a * n + b` for exactly one pair `a < m`, `b < n`, so a sum
    over `Fin (m * n)` of a function of the value splits into the double sum. -/
theorem sum_fin_mul {M : Type*} [AddCommMonoid M] (m n : ℕ) (f : ℕ → M) :
    ∑ i : Fin (m * n), f i.val = ∑ a : Fin m, ∑ b : Fin n, f (a.val * n + b.val) := by
  rw [← finProdFinEquiv.sum_comp, Fintype.sum_prod_type]
  refine Finset.sum_congr rfl fun a _ => Finset.sum_congr rfl fun b _ => ?_
  simp [finProdFinEquiv, Nat.mul_comm, Nat.add_comm]

end Cert.Hist
-- ==== Proof.Spec.lean ====
/-
  The class sums. For scores `x` and class words `cid` over the 16777216 positions, the sum of class
  `k` is the total of the scores whose class word, read signed, is `k`. The flat positions are
  grouped as the histogram pass visits them: position `((u * 32 + r) * 128 + l)` is lane `l` of row
  `r` of the block of grid point `u`; core `q` visits the points `2048 q … 2048 q + 2047`. The total
  over all positions is the sum over the two cores of the sums over their points (`sum_points`).
-/
import proofs.«410184_j70437463655137_2_alg».proof.Proof.SumSplit
import Idealize.ShloMosaic.PureOps.Ideal
import Idealize.ShloMosaic.Lib.ValueIdx

noncomputable section
namespace Cert.Hist

open Idealize.ShloMosaic Idealize.ShloMosaic.ValueIdx

/-- Position `n`'s contribution to class `k`: its score if its class word reads `k`, else nothing
    (and nothing past the last position). -/
def term (x : (⟨1, ![16777216]⟩ : Shape).Idx → EReal) (cid : IVec ⟨1, ![16777216]⟩ 32) (k n : ℕ) : EReal :=
  if h : n < 16777216 then (if (cid (ix1 ⟨n, h⟩)).toInt = (k : ℤ) then x (ix1 ⟨n, h⟩) else 0) else 0

/-- The sum of class `k`. -/
def classSum (x : (⟨1, ![16777216]⟩ : Shape).Idx → EReal) (cid : IVec ⟨1, ![16777216]⟩ 32) (k : ℕ) : EReal :=
  ∑ i : Fin 16777216, term x cid k i.val

/-- What the block of grid point `u` contributes to class `k`: its 32 rows of 128 lanes. -/
def pointSum (x : (⟨1, ![16777216]⟩ : Shape).Idx → EReal) (cid : IVec ⟨1, ![16777216]⟩ 32) (k u : ℕ) : EReal :=
  ∑ r : Fin 32, ∑ l : Fin 128, term x cid k ((u * 32 + r.val) * 128 + l.val)

/-- A sum over the points `b … b + 2047` as a sum over offsets. -/
theorem sum_Ico_run (g : ℕ → EReal) (b : ℕ) :
    ∑ u ∈ Finset.Ico b (b + 2048), g u = ∑ s : Fin 2048, g (b + s.val) := by
  rw [Finset.sum_Ico_eq_sum_range, Nat.add_sub_cancel_left, Finset.sum_range]

/-- The class sum is the sum over the two cores of the sums over their runs of points. -/
theorem sum_points (x : (⟨1, ![16777216]⟩ : Shape).Idx → EReal) (cid : IVec ⟨1, ![16777216]⟩ 32) (k : ℕ) :
    ∑ q : Fin 2, ∑ u ∈ Finset.Ico (q.val * 2048) (q.val * 2048 + 2048), pointSum x cid k u = classSum x cid k := by
  unfold classSum pointSum
  have e1 := sum_fin_mul 131072 128 (term x cid k)
  have e2 := sum_fin_mul 4096 32 (fun a => ∑ l : Fin 128, term x cid k (a * 128 + l.val))
  have e3 := sum_fin_mul 2 2048 (fun u => ∑ r : Fin 32, ∑ l : Fin 128, term x cid k ((u * 32 + r.val) * 128 + l.val))
  refine Eq.trans ?_ e1.symm
  refine Eq.trans ?_ e2.symm
  refine Eq.trans ?_ e3.symm
  exact Finset.sum_congr rfl fun q _ => sum_Ico_run _ _

end Cert.Hist
end
-- ==== Proof.Blocks.lean ====
/-
  The arrays the histogram pass reads and their blocks. The pass sees the scores and the class words
  as 131072 rows of 128 lanes: row `a`, lane `l` is flat position `128 a + l`. Grid point `t` is
  handed the 32 rows `32 t … 32 t + 31` of both. So lane `l` of row `r` of point `t`'s blocks is flat
  position `(32 t + r) * 128 + l`, and its contribution to a class is that position's.
-/
import proofs.«410184_j70437463655137_2_alg».proof.Proof.Gen.KernelIdeal.Frame
import proofs.«410184_j70437463655137_2_alg».proof.Proof.Spec
import Idealize.ShloMosaic.Lib.Pipeline.Value
import Idealize.ShloMosaic.Lib.StableHlo.Run

set_option maxRecDepth 16384

noncomputable section
namespace Cert.Hist
open Idealize.ShloMosaic Idealize.ShloMosaic.TcCoe Idealize.ShloMosaic.ValueIdx
open Idealize.SL Idealize.SL.Sem Idealize.ShloMosaic.StableHlo
open Cert.KernelIdeal Cert.KernelIdeal.Gen

/-- The class word of every score: the class table read at the score's table index, a negative
    index counted from the table's end (the program's own gather chain, kept as one term). -/
def classIds (x1 : IVec S16777216 32) (x2 : IVec S1048576 32) : IVec S16777216 32 :=
  Host.gather gather_S1048576_S16777216x1_S16777216_n_0_n_n_0_1_1 x2
    (broadcastInDim S16777216x1 ![0] bcast_S16777216_S16777216x1_0
      (select (cmpi .slt x1 (broadcastInDim S16777216 ![] bcast_S_S16777216 (constantI S_ 32 0#32)))
        (addi x1 (broadcastInDim S16777216 ![] bcast_S_S16777216 (constantI S_ 32 1048576#32))) x1))

variable (m : (ℓ : Loc nD τ sig) → Buf (Elt Ideal) ℓ)

/-- The scores as launched. -/
abbrev scores (c : Dev nD) : S16777216.Idx → EReal := m ((c.tc : Thread nD τ).loc main_arg0)
/-- The class words of the launched arguments. -/
abbrev cids (c : Dev nD) : IVec S16777216 32 :=
  classIds (m ((c.tc : Thread nD τ).loc main_arg1)) (m ((c.tc : Thread nD τ).loc main_arg2))

/-- The two arrays the pass is launched on, by their literal types. -/
abbrev sarr (c : Dev nD) : Vec Ideal S131072x128 .f32 := V m c main_v7
abbrev carr (c : Dev nD) : Vec Ideal S131072x128 .i32 := V m c main_v8
/-- Point `t`'s blocks of them. -/
abbrev sblk (c : Dev nD) (t : Fin cfg0.N) : Vec Ideal S32x128 .f32 := iblk m c 0 t
abbrev cblk (c : Dev nD) (t : Fin cfg0.N) : Vec Ideal S32x128 .i32 := iblk m c 1 t

/-- The score array is the launched scores in rows of 128. -/
theorem sarr_eq (c : Dev nD) :
    sarr m c = shapeCast S131072x128 (scores m c) shapeCasts_S16777216_S131072x128 := by
  show StableHlo.after hostOps0 (fun b => m (c, b)) (Proc.devRef .tc main_v7) = _
  after_results
  rfl

/-- The class array is the class words in rows of 128. -/
theorem carr_eq (c : Dev nD) :
    carr m c = shapeCast S131072x128 (cids m c) shapeCasts_S16777216_S131072x128 := by
  show StableHlo.after hostOps0 (fun b => m (c, b)) (Proc.devRef .tc main_v8) = _
  after_results
  rfl

/-- Row `a`, lane `l` of a flat array in rows of 128 is flat position `128 a + l`. -/
theorem rows_apply {α : Type} (x : S16777216.Idx → α) (a : Fin 131072) (l : Fin 128) :
    shapeCast S131072x128 x shapeCasts_S16777216_S131072x128 (ix2 a l)
      = x (ix1 ⟨a.val * 128 + l.val, by have := a.isLt; have := l.isLt; omega⟩) := by
  refine shapeCast_apply x _ (ix2 a l) _ ?_
  rw [Shape.rowMajor_val_one, Shape.rowMajor_val_two]
  rfl

/-- Where the two input windows sit at point `t`: rows from `32 t`, all lanes. -/
theorem idx_in0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx_in1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

theorem row_lt (t : Fin cfg0.N) (r : Fin 32) : t.val * 32 + r.val < 131072 := by
  have hN : t.val < 4096 := lt_of_lt_of_eq t.isLt (show cfg0.N = 4096 from N_0)
  have := r.isLt; omega

/-- Row `r`, lane `l` of point `t`'s score block is row `32 t + r`, lane `l` of the score array. -/
theorem sblk_apply (c : Dev nD) (t : Fin cfg0.N) (r : Fin 32) (l : Fin 128) :
    sblk m c t (ix2 r l) = sarr m c (ix2 ⟨t.val * 32 + r.val, row_lt t r⟩ l) := by
  show V m c main_v7 (((cfg0.win 0).blk t).view.emb (ix2 r l)) = V m c main_v7 _
  refine congrArg _ (funext fun a => Fin.ext ?_)
  match a with
  | ⟨0, _⟩ => show win0_0.index t 0 * 32 + 1 * r.val = t.val * 32 + r.val; rw [(idx_in0 t).1]; omega
  | ⟨1, _⟩ => show win0_0.index t 1 * 128 + 1 * l.val = l.val; rw [(idx_in0 t).2]; omega

/-- The same for the class block. -/
theorem cblk_apply (c : Dev nD) (t : Fin cfg0.N) (r : Fin 32) (l : Fin 128) :
    cblk m c t (ix2 r l) = carr m c (ix2 ⟨t.val * 32 + r.val, row_lt t r⟩ l) := by
  show V m c main_v8 (((cfg0.win 1).blk t).view.emb (ix2 r l)) = V m c main_v8 _
  refine congrArg _ (funext fun a => Fin.ext ?_)
  match a with
  | ⟨0, _⟩ => show win0_1.index t 0 * 32 + 1 * r.val = t.val * 32 + r.val; rw [(idx_in1 t).1]; omega
  | ⟨1, _⟩ => show win0_1.index t 1 * 128 + 1 * l.val = l.val; rw [(idx_in1 t).2]; omega

/-- One lane of point `t`'s blocks contributes to class `k` what its flat position does. -/
theorem lane_term (c : Dev nD) (t : Fin cfg0.N) (r : Fin 32) (l : Fin 128) (k : ℕ) :
    (if (cblk m c t (ix2 r l)).toInt = (k : ℤ) then sblk m c t (ix2 r l) else 0)
      = term (scores m c) (cids m c) k ((t.val * 32 + r.val) * 128 + l.val) := by
  have hlt : (t.val * 32 + r.val) * 128 + l.val < 16777216 := by
    have := row_lt t r; have := l.isLt; omega
  rw [sblk_apply, cblk_apply, sarr_eq, carr_eq, rows_apply, rows_apply]
  unfold term
  rw [dif_pos hlt]

/-- So the whole of point `t`'s blocks contributes the point's sum. -/
theorem block_sum (c : Dev nD) (t : Fin cfg0.N) (k : ℕ) :
    (∑ r : Fin 32, ∑ l : Fin 128,
        (if (cblk m c t (ix2 r l)).toInt = (k : ℤ) then sblk m c t (ix2 r l) else 0))
      = pointSum (scores m c) (cids m c) k t.val :=
  Finset.sum_congr rfl fun r _ => Finset.sum_congr rfl fun l _ => lane_term m c t r l k

end Cert.Hist
end
-- ==== Proof.Acc.lean ====
/-
  The accumulator after every grid point. A core's run is 2048 consecutive points: the first zeroes
  the accumulator and adds its block's sums, each later one adds its block's sums to what the point
  before left. So after point `n` the accumulator's slot `(h, j)` holds the sum, over the points of
  `n`'s run up to `n`, of what each point's block contributes to class `128 h + j` — by induction on
  the point. The last point of a run also copies the accumulator to the output block.
-/
import proofs.«410184_j70437463655137_2_alg».proof.Proof.Pieces
import proofs.«410184_j70437463655137_2_alg».proof.Proof.Payload
import proofs.«410184_j70437463655137_2_alg».proof.Proof.Blocks

set_option maxRecDepth 16384

noncomputable section
namespace Cert.Hist
open Idealize.ShloMosaic Idealize.ShloMosaic.TcCoe Idealize.ShloMosaic.ValueIdx
open Idealize.SL Idealize.SL.Sem
open Cert.KernelIdeal Cert.KernelIdeal.Gen

variable (m : (ℓ : Loc nD τ sig) → Buf (Elt Ideal) ℓ)

/-- The accumulating payload at point `t`, slot `(h, j)`: the accumulator it loaded plus the point's
    sum for class `128 h + j`. -/
theorem step_apply (c : Dev nD) (t : Fin cfg0.N) (xs0 : Vec Ideal S8x128 .f32) (h : Fin 8) (j : Fin 128) :
    k0_pay3 (F := Ideal) (sblk m c t) (cblk m c t) xs0 (ix2 h j)
      = xs0 (ix2 h j) + pointSum (scores m c) (cids m c) (h.val * 128 + j.val) t.val :=
  (pay3_apply (sblk m c t) (cblk m c t) xs0 h j).trans
    (congrArg (fun z => xs0 (ix2 h j) + z) (block_sum m c t (h.val * 128 + j.val)))

/-- The sum over the points of `n`'s run up to `n` of their contributions to class `k`. -/
def runSum (c : Dev nD) (k n : ℕ) : EReal :=
  ∑ u ∈ Finset.Ico (n - n % 2048) (n + 1), pointSum (scores m c) (cids m c) k u

/-- A run's first point leaves its own sum. -/
theorem scratch_first (c : Dev nD) (t : Fin cfg0.N) (h0 : t.val % 2048 = 0) (h1 : ¬t.val % 2048 = 2047)
    (h : Fin 8) (j : Fin 128) :
    (outsAt0 m c t.val t.isLt).2 (ix2 h j) = pointSum (scores m c) (cids m c) (h.val * 128 + j.val) t.val := by
  rw [outsAt0_A m c t h0 h1]
  dsimp only
  refine (congrFun (sout_A (F := Ideal) c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (sblk m c t) (cblk m c t)) (ix2 h j)).trans ?_
  refine (step_apply m c t (k0_pay2 (F := Ideal)) h j).trans ?_
  rw [pay2_apply, zero_add]

/-- Every later point adds its sum to what the point before left. -/
theorem scratch_next (c : Dev nD) (t : Fin cfg0.N) (h0 : ¬t.val % 2048 = 0) (h : Fin 8) (j : Fin 128) :
    (outsAt0 m c t.val t.isLt).2 (ix2 h j)
      = (outsAt0 m c (t.val - 1) (Nat.lt_of_le_of_lt (Nat.sub_le _ _) t.isLt)).2 (ix2 h j)
        + pointSum (scores m c) (cids m c) (h.val * 128 + j.val) t.val := by
  by_cases h1 : t.val % 2048 = 2047
  · rw [outsAt0_C m c t h0 h1]
    dsimp only
    refine (congrFun (sout_C (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (sblk m c t) (cblk m c t) (outsAt0 m c (t.val - 1) (Nat.lt_of_le_of_lt (Nat.sub_le _ _) t.isLt)).2) (ix2 h j)).trans ?_
    exact step_apply m c t _ h j
  · rw [outsAt0_B m c t h0 h1]
    dsimp only
    refine (congrFun (sout_B (F := Ideal) c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (sblk m c t) (cblk m c t) (outsAt0 m c (t.val - 1) (Nat.lt_of_le_of_lt (Nat.sub_le _ _) t.isLt)).2) (ix2 h j)).trans ?_
    exact step_apply m c t _ h j

/-- After point `n` the accumulator's slot `(h, j)` holds the run's sum up to `n` for class `128 h + j`. -/
theorem scratch_eq (c : Dev nD) : ∀ (n : ℕ) (hn : n < cfg0.N) (h : Fin 8) (j : Fin 128),
    (outsAt0 m c n hn).2 (ix2 h j) = runSum m c (h.val * 128 + j.val) n
  | 0, hn, h, j => by
    refine (scratch_first m c ⟨0, hn⟩ rfl (by show ¬0 % 2048 = 2047; decide) h j).trans ?_
    unfold runSum
    simp
  | n + 1, hn, h, j => by
    by_cases h0 : (n + 1) % 2048 = 0
    · refine (scratch_first m c ⟨n + 1, hn⟩ h0 (by dsimp only; omega) h j).trans ?_
      unfold runSum
      rw [h0, Nat.sub_zero, Nat.Ico_succ_singleton, Finset.sum_singleton]
    · refine (scratch_next m c ⟨n + 1, hn⟩ h0 h j).trans ?_
      show (outsAt0 m c n _).2 (ix2 h j) + _ = _
      rw [scratch_eq c n _ h j]
      unfold runSum
      have e : n + 1 - (n + 1) % 2048 = n - n % 2048 := by omega
      rw [e, Finset.sum_Ico_succ_top (by omega : n - n % 2048 ≤ n + 1)]

/-- At a run's last point the output block is the accumulator under a leading unit axis: the whole
    run's sum. -/
theorem out_last (c : Dev nD) (t : Fin cfg0.N) (h1 : t.val % 2048 = 2047) (h : Fin 8) (j : Fin 128) :
    (outsAt0 m c t.val t.isLt).1 (ix3 (0 : Fin 1) h j) = runSum m c (h.val * 128 + j.val) t.val := by
  have h0 : ¬t.val % 2048 = 0 := by omega
  rw [← scratch_eq m c t.val t.isLt h j, outsAt0_C m c t h0 h1]
  dsimp only
  refine (congrFun (out_C (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (sblk m c t) (cblk m c t) (outsAt0 m c (t.val - 1) (Nat.lt_of_le_of_lt (Nat.sub_le _ _) t.isLt)).2) (ix3 (0 : Fin 1) h j)).trans ?_
  refine (pay1_apply _ h j).trans ?_
  exact (congrFun (sout_C (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (sblk m c t) (cblk m c t) (outsAt0 m c (t.val - 1) (Nat.lt_of_le_of_lt (Nat.sub_le _ _) t.isLt)).2) (ix2 h j)).symm

end Cert.Hist
end
-- ==== Proof.Mean.lean ====
/-
  The result both programs compute: for each of the 1000 classes, zero plus the class sum, divided
  by the constant 1048576 (the class table's length), on the extended reals.
-/
import proofs.«410184_j70437463655137_2_alg».proof.Proof.Spec

noncomputable section
namespace Cert.Hist

open Idealize.ShloMosaic Idealize.ShloMosaic.ValueIdx

/-- Class `k`'s entry: the class sum onto zero, over the table length. -/
def histMean (x : (⟨1, ![16777216]⟩ : Shape).Idx → EReal) (cid : IVec ⟨1, ![16777216]⟩ 32) :
    (⟨1, ![1000]⟩ : Shape).Idx → EReal :=
  fun k => Ideal.div (Ideal.ofBits .f32 0x00000000#32 + classSum x cid (k 0).val) (Ideal.ofBits .f32 0x49800000#32)

end Cert.Hist
end
-- ==== Proof.KernelValue.lean ====
/-
  The histogram pass's result array and the program's result. Core `q`'s output block is written back
  once, after the last point of its run, and holds at slot `(h, j)` the whole run's sum for class
  `128 h + j`; the two blocks tile the result array. The host then adds the two cores' blocks onto
  zero, flattens the 8 x 128 slots to 1024 classes, keeps the first 1000 and divides by the table
  length: class `k` ends at the quotient of (zero plus the sum over the cores of their runs' sums for
  class `k`) by that constant.
-/
import proofs.«410184_j70437463655137_2_alg».proof.Proof.Acc
import proofs.«410184_j70437463655137_2_alg».proof.Proof.Mean
import Idealize.ShloMosaic.PureOps.Ideal.Laws

set_option maxRecDepth 16384
set_option pp.maxSteps 5000
set_option pp.deepTerms false

noncomputable section
namespace Cert.Hist
open Idealize.ShloMosaic Idealize.ShloMosaic.TcCoe Idealize.ShloMosaic.ValueIdx
open Idealize.SL Idealize.SL.Sem Idealize.ShloMosaic.StableHlo
open Idealize.ShloMosaic.Pipeline (Dat)
open Cert.KernelIdeal Cert.KernelIdeal.Gen

variable (m : (ℓ : Loc nD τ sig) → Buf (Elt Ideal) ℓ) (ρ : Dev nD → PrngReg)

/-- Core `q`'s whole run for class `k`. -/
def coreSum (c : Dev nD) (q k : ℕ) : EReal :=
  ∑ u ∈ Finset.Ico (q * 2048) (q * 2048 + 2048), pointSum (scores m c) (cids m c) k u

/-- The pass's result array: core, high part, low part. -/
def coreSums (c : Dev nD) : Vec Ideal S2x8x128 .f32 :=
  fun i => coreSum m c (i 0).val ((i 1).val * 128 + (i 2).val)

/-- At the last point of a run the running sum is the core's whole run. -/
theorem runSum_last (c : Dev nD) (k n : ℕ) (h1 : n % 2048 = 2047) : runSum m c k n = coreSum m c (n / 2048) k := by
  unfold runSum coreSum
  have e1 : n - n % 2048 = n / 2048 * 2048 := by omega
  have e2 : n + 1 = n / 2048 * 2048 + 2048 := by omega
  rw [e1, e2]

/-- Where the output window sits at point `t`: block `t / 2048` along the core axis. -/
theorem idx_out : ∀ t : Fin cfg0.N, win0_2.index t (0 : Fin 3) = t.val / 2048 ∧ win0_2.index t (1 : Fin 3) = 0 ∧ win0_2.index t (2 : Fin 3) = 0 :=
  (by decide +kernel : ∀ t : Fin grid0.N, win0_2.index t (0 : Fin 3) = t.val / 2048 ∧ win0_2.index t (1 : Fin 3) = 0 ∧ win0_2.index t (2 : Fin 3) = 0)

/-- What a writing point writes back is its block of the result array. -/
theorem flushed_eq (c : Dev nD) (t : Fin cfg0.N) (hf : (cfg0.win 2).flush t = true) :
    (dats m 0 c).flushed 2 t = ((cfg0.win 2).blk t).view.read (Elt Ideal) (coreSums m c) := by
  have h1 : t.val % 2048 = 2047 := (flush0_2 t).mp hf
  obtain ⟨i0, i1, i2⟩ := idx_out t
  show (cfg0.win 2).cut (grid0.coords t) ((dats m 0 c).after 2 t) = _
  rw [after0_2]
  funext y
  have y0 : (y 0).val < 1 := (y 0).isLt
  have y1 : (y 1).val < 8 := (y 1).isLt
  have y2 : (y 2).val < 128 := (y 2).isLt
  show (outsAt0 m c t.val t.isLt).1 ((cfg0.win 2).xinj (grid0.coords t) y) = coreSums m c (((cfg0.win 2).blk t).view.emb y)
  have e : ((cfg0.win 2).xinj (grid0.coords t) y : S1x8x128.Idx) = ix3 (0 : Fin 1) ⟨(y 1).val, y1⟩ ⟨(y 2).val, y2⟩ := by
    funext a; apply Fin.ext
    match a with
    | ⟨0, _⟩ => show (y 0).val = 0; omega
    | ⟨1, _⟩ => rfl
    | ⟨2, _⟩ => rfl
  rw [e, out_last m c t h1, runSum_last m c _ _ h1]
  unfold coreSums
  have a0 : ((((cfg0.win 2).blk t).view.emb y) 0).val = t.val / 2048 := by
    show win0_2.index t (0 : Fin 3) * 1 + 1 * (y 0).val = _; omega
  have a1 : ((((cfg0.win 2).blk t).view.emb y) 1).val = (y 1).val := by
    show win0_2.index t (1 : Fin 3) * 8 + 1 * (y 1).val = _; omega
  have a2 : ((((cfg0.win 2).blk t).view.emb y) 2).val = (y 2).val := by
    show win0_2.index t (2 : Fin 3) * 128 + 1 * (y 2).val = _; omega
  show _ = coreSum m c ((((cfg0.win 2).blk t).view.emb y) 0).val (((((cfg0.win 2).blk t).view.emb y) 1).val * 128 + ((((cfg0.win 2).blk t).view.emb y) 2).val)
  rw [a0, a1, a2]

/-- The two writing points' blocks cover the result array. -/
theorem covered (c : Dev nD) (i : S2x8x128.Idx) :
    ∃ t : Fin cfg0.N, (cfg0.win 2).flush t = true ∧ i ∈ ((cfg0.win 2).blk t).view.set := by
  have h0 : (i 0).val < 2 := (i 0).isLt
  have h1 : (i 1).val < 8 := (i 1).isLt
  have h2 : (i 2).val < 128 := (i 2).isLt
  have hN : cfg0.N = 4096 := N_0
  let t : Fin cfg0.N := ⟨(i 0).val * 2048 + 2047, by omega⟩
  have ht : t.val = (i 0).val * 2048 + 2047 := rfl
  obtain ⟨i0, i1, i2⟩ := idx_out t
  refine ⟨t, (flush0_2 t).mpr (by omega), ?_⟩
  show i ∈ ((View.whole main_v9).slice (win0_2.rect t)).set
  rw [View.set_slice_whole, Rect.mem_set_unit]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 8 ≤ (i 1).val ∧ (i 1).val < win0_2.index t (1 : Fin 3) * 8 + 8; omega
  | ⟨2, _⟩ => show win0_2.index t (2 : Fin 3) * 128 ≤ (i 2).val ∧ (i 2).val < win0_2.index t (2 : Fin 3) * 128 + 128; omega

/-- So the pass leaves the result array at the cores' sums. -/
theorem final_out (c : Dev nD) : (dats m 0 c).arrAt 2 cfg0.N = coreSums m c :=
  (dats m 0 c).arrAt_eq_of_cover 2 (coreSums m c) (flushed_eq m c) (covered c)

/-- The host operations after the pass, as one function of the pass's result array. -/
def tailOf (a : Vec Ideal S2x8x128 .f32) : Vec Ideal S1000 .f32 :=
  Host.divf (F := Ideal)
    (extractStridedSlice S1000 ![0]
      (shapeCast S1024 (Host.reduceAdd (F := Ideal) a (constant (F := Ideal) S_ .f32 0x00000000#32) reducesTo_S2x8x128_S8x128_d0 h_S_)
        shapeCasts_S8x128_S1024) slices_S1024_S1000_0)
    (broadcastInDim S1000 ![] bcast_S_S1000 (constant (F := Ideal) S_ .f32 0x49800000#32))

/-- The program's result buffer after the run is those operations of the cores' sums. -/
theorem tail_eq (c : Dev nD) :
    Pipeline.afterTail₀ cfgs (dats m) 0 (V0 m) [hostOps1] c main_v14 = tailOf (coreSums m c) := by
  unfold Pipeline.afterTail₀
  show StableHlo.after hostOps1 _ (Proc.devRef .tc main_v14) = _
  after_results
  have e : Pipeline.withArrays (cfgs 0).spec c (V0 m c) (fun w => (dats m 0 c).arrAt w (cfgs 0).N) (Proc.tc.devRef main_v9)
      = coreSums m c := (Pipeline.withArrays_arr spec0 launch0.win.arr_inj c _ _ 2).trans (final_out m c)
  rw [e]
  rfl

theorem red : S2x8x128.Reduces [0] S8x128 := by decide

/-- Those operations at class `k`: zero plus the two cores' entries at slot `(k / 128, k % 128)`, over
    the table length. -/
theorem tailOf_apply (a : Vec Ideal S2x8x128 .f32) (k : Fin 1000) :
    tailOf a (ix1 k)
      = Ideal.div (Ideal.ofBits .f32 0x00000000#32
          + ∑ q : Fin 2, a (ix3 q (⟨k.val / 128, by have := k.isLt; omega⟩ : Fin 8) (⟨k.val % 128, Nat.mod_lt _ (by decide)⟩ : Fin 128)))
        (Ideal.ofBits .f32 0x49800000#32) := by
  have hk := k.isLt
  unfold tailOf
  show Ideal.div (extractStridedSlice S1000 ![0] (shapeCast S1024 (Host.reduceAdd (F := Ideal) a (constant (F := Ideal) S_ .f32 0x00000000#32) reducesTo_S2x8x128_S8x128_d0 h_S_) shapeCasts_S8x128_S1024) slices_S1024_S1000_0 (ix1 k)) (broadcastInDim S1000 ![] bcast_S_S1000 (constant (F := Ideal) S_ .f32 0x49800000#32) (ix1 k)) = _
  rw [extractStridedSlice_apply ![0] _ slices_S1024_S1000_0 (ix1 k) (ix1 (⟨k.val, by omega⟩ : Fin 1024))
      (fun a => match a with | ⟨0, _⟩ => (Nat.zero_add _).symm),
    shapeCast_apply _ shapeCasts_S8x128_S1024 (ix1 (⟨k.val, by omega⟩ : Fin 1024))
      (ix2 (⟨k.val / 128, by omega⟩ : Fin 8) (⟨k.val % 128, Nat.mod_lt _ (by decide)⟩ : Fin 128))
      (by rw [Shape.rowMajor_val_one, Shape.rowMajor_val_two]; show k.val / 128 * 128 + k.val % 128 = k.val; omega),
    broadcastInDim_apply _ bcast_S_S1000 _ (ix1 k) ix0 (fun a => a.elim0)]
  show Ideal.div (Ideal.hostReduceAdd reducesTo_S2x8x128_S8x128_d0 a (Ideal.ofBits .f32 0x00000000#32) _) (Ideal.ofBits .f32 0x49800000#32) = _
  rw [Ideal.hostReduceAdd_single reducesTo_S2x8x128_S8x128_d0 red]
  refine congrArg (fun z => Ideal.div (Ideal.ofBits .f32 0x00000000#32 + z) (Ideal.ofBits .f32 0x49800000#32)) ?_
  refine Finset.sum_congr rfl fun q _ => congrArg a ?_
  funext b
  match b with
  | ⟨0, _⟩ => rfl
  | ⟨1, _⟩ => rfl
  | ⟨2, _⟩ => rfl

/-- The program's result is the class means. -/
theorem result_eq (c : Dev nD) : tailOf (coreSums m c) = histMean (scores m c) (cids m c) := by
  funext k
  obtain ⟨k, rfl⟩ : ∃ k' : Fin 1000, k = ix1 k' := ⟨k 0, eq_ix1 k⟩
  rw [tailOf_apply]
  unfold histMean coreSums
  refine congrArg (fun z => Ideal.div (Ideal.ofBits .f32 0x00000000#32 + z) (Ideal.ofBits .f32 0x49800000#32)) ?_
  have e : k.val / 128 * 128 + k.val % 128 = k.val := by omega
  show ∑ q : Fin 2, coreSum m c q.val (k.val / 128 * 128 + k.val % 128) = classSum (scores m c) (cids m c) k.val
  rw [e]
  exact sum_points (scores m c) (cids m c) k.val

/-- The run, read: the result buffer at the class means, the arguments unchanged. -/
theorem run : θ_run defs (onTc (τ := τ) (main (F := Ideal))) ⟨m, fun _ => 0, ρ⟩ fun r => ∀ c : Dev nD,
      r.2.mem ((c.tc : Thread nD τ).loc main_v14) = histMean (scores m c) (cids m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v14 (Pipeline.mem_restRefs_of main_v14 (by decide) (by decide))).trans ((tail_eq m c).trans (result_eq m c)),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c)⟩)
    (run_main m ρ)

end Cert.Hist
end
-- ==== Proof.ScatterRead.lean ====
/-
  The reference's segment sum read at a class: the host's accumulating scatter of the scores into a
  zero vector of 1000 classes, with one scatter index per score, holds at class `k` the operand's
  entry plus the sum of the scores whose index word, read signed, is `k`; a score whose index is
  negative or at least 1000 lands nowhere.
-/
import proofs.«410184_j70437463655137_2_alg».proof.ReferenceIdeal
import Idealize.ShloMosaic.PureOps.Ideal
import Idealize.ShloMosaic.Lib.ValueIdx

namespace Cert.Hist

open Idealize.ShloMosaic Idealize.ShloMosaic.ValueIdx Cert.ReferenceIdeal

section
variable [Cert.ReferenceIdeal.Facts₀]

/-- The one operand axis is an inserted window axis, so the window coordinate of every score on it is `0`. -/
theorem window_zero (j : S16777216.Idx) (a : Fin S1000.rank) :
    scatter_S1000_S16777216x1_S16777216_n_0_0_1.window j a = 0 := by
  unfold ScatterDims.window
  rw [dif_neg]
  have ha : a = (0 : Fin 1) := Subsingleton.elim _ _
  subst ha
  show (0 : Fin 1) ∉ (List.finRange 1).filter (· ∉ [(0 : Fin 1)])
  decide

/-- Score `i` reads its start index at row `i`, column `0` of the scatter indices: the score's own
    coordinate on the kept axis, the component number (there is one component, `0`) on the index
    vector's axis. -/
theorem siIdx_eq (i : Fin 16777216)
    (c : Fin scatter_S1000_S16777216x1_S16777216_n_0_0_1.scatterDimsToOperandDims.length) :
    scatter_S1000_S16777216x1_S16777216_n_0_0_1.siIdx (ix1 i) c = ix2 i (0 : Fin 1) := by
  funext b
  match b with
  | ⟨0, _⟩ =>
    unfold ScatterDims.siIdx
    rw [dif_neg (by show ¬ (0 : ℕ) = 1; omega)]
    unfold ScatterDims.siCoord
    apply Fin.ext
    simp only [Fin.coe_cast]
    exact congrArg (fun t => ((ix1 i : S16777216.Idx) t).val) (Subsingleton.elim _ (0 : Fin 1))
  | ⟨1, _⟩ =>
    unfold ScatterDims.siIdx
    rw [dif_pos (by show (1 : ℕ) = 1; rfl)]
    apply Fin.ext
    have hc := c.isLt
    show c.val = 0
    have : scatter_S1000_S16777216x1_S16777216_n_0_0_1.scatterDimsToOperandDims.length = 1 := rfl
    omega

/-- The window of score `i` starts, on the one operand axis, at its index word read signed. -/
theorem start_eq (i : Fin 16777216) (idx : IVec S16777216x1 32) (a : Fin S1000.rank) :
    scatter_S1000_S16777216x1_S16777216_n_0_0_1.start (ix1 i) idx a = (idx (ix2 i (0 : Fin 1))).toInt := by
  have ha : a ∈ scatter_S1000_S16777216x1_S16777216_n_0_0_1.scatterDimsToOperandDims := by
    have h0 : a = (0 : Fin 1) := Subsingleton.elim _ _
    subst h0
    exact List.mem_singleton_self _
  unfold ScatterDims.start
  rw [dif_pos ha, siIdx_eq]

/-- Score `i` lands at class `k` exactly when its index word, read signed, is `k`: the landing
    place is start plus window coordinate, that is the signed index plus `0`, kept when it lies in
    `[0, 1000)`, which `k` does. -/
theorem resultIdx?_iff (i : Fin 16777216) (idx : IVec S16777216x1 32) (k : Fin 1000) :
    scatter_S1000_S16777216x1_S16777216_n_0_0_1.resultIdx? (ix1 i) idx = some (ix1 k)
      ↔ (idx (ix2 i (0 : Fin 1))).toInt = ((k.val : ℕ) : ℤ) := by
  have hk := k.isLt
  unfold ScatterDims.resultIdx?
  split_ifs with h
  · rw [Option.some.injEq]
    have h0 := h (0 : Fin 1)
    rw [start_eq, window_zero] at h0
    constructor
    · intro he
      have hv := congrArg (fun f : S1000.Idx => (f (0 : Fin 1)).val) he
      simp only at hv
      rw [start_eq, window_zero] at hv
      change _ = k.val at hv
      omega
    · intro he
      funext a
      have ha : a = (0 : Fin 1) := Subsingleton.elim _ _
      subst ha
      apply Fin.ext
      show (scatter_S1000_S16777216x1_S16777216_n_0_0_1.start (ix1 i) idx (0 : Fin 1)
        + scatter_S1000_S16777216x1_S16777216_n_0_0_1.window (ix1 i) (0 : Fin 1)).toNat = k.val
      rw [start_eq, window_zero]
      omega
  · constructor
    · intro he
      exact absurd he (by simp)
    · intro he
      exfalso
      apply h
      intro a
      rw [start_eq, window_zero]
      have hs : S1000.size a = 1000 := by
        have ha : a = (0 : Fin 1) := Subsingleton.elim _ _
        subst ha
        rfl
      rw [hs]
      omega

/-- A rank-1 index set is its one coordinate range. -/
def idxEquiv1 (n : ℕ) : Fin n ≃ (⟨1, ![n]⟩ : Shape).Idx where
  toFun i := ix1 i
  invFun j := j 0
  left_inv _ := rfl
  right_inv j := (eq_ix1 j).symm

end

/-- The scatter-add of `upd` at the indices `idx` onto `x`, at class `k`: `x k` plus the sum over
    all scores `i` of `upd i` where `idx i` reads `k`, else nothing. -/
theorem scatterAdd_read [Cert.ReferenceIdeal.Facts₀] (x : S1000.Idx → EReal) (idx : IVec S16777216x1 32)
    (upd : S16777216.Idx → EReal) (k : Fin 1000) :
    Ideal.hostScatterAdd scatter_S1000_S16777216x1_S16777216_n_0_0_1 x idx upd (ix1 k)
      = x (ix1 k) + ∑ i : Fin 16777216,
          (if (idx (ix2 i (0 : Fin 1))).toInt = ((k.val : ℕ) : ℤ) then upd (ix1 i) else 0) := by
  unfold Ideal.hostScatterAdd
  refine congrArg (x (ix1 k) + ·) ?_
  rw [Finset.sum_filter, ← Equiv.sum_comp (idxEquiv1 16777216)]
  apply Finset.sum_congr rfl
  intro i _
  exact if_congr (resultIdx?_iff i idx k) rfl rfl

end Cert.Hist
-- ==== Proof.RefValue.lean ====
/-
  The reference computes the class means: its segment sum scatters every score onto a zero vector at
  the score's class word, so class `k` receives exactly the scores whose word reads `k`; the quotient
  by the table length follows.
-/
import proofs.«410184_j70437463655137_2_alg».proof.Proof.Gen.ReferenceIdeal.Read
import proofs.«410184_j70437463655137_2_alg».proof.Proof.ScatterRead
import proofs.«410184_j70437463655137_2_alg».proof.Proof.Mean

noncomputable section
namespace Cert.Hist

open Idealize.ShloMosaic Idealize.ShloMosaic.ValueIdx
open Cert.ReferenceIdeal Cert.ReferenceIdeal.Gen Cert.ReferenceIdeal.Read

/-- The same reading with the scatter spelt as the program spells it. -/
theorem scatterAdd_read_host [Cert.ReferenceIdeal.Facts₀] (x : S1000.Idx → EReal) (idx : IVec S16777216x1 32)
    (upd : S16777216.Idx → EReal) (k : Fin 1000) :
    Host.scatterAdd (F := Ideal) (φ := .f32) scatter_S1000_S16777216x1_S16777216_n_0_0_1 x idx upd (ix1 k)
      = x (ix1 k) + ∑ i : Fin 16777216,
          (if (idx (ix2 i (0 : Fin 1))).toInt = ((k.val : ℕ) : ℤ) then upd (ix1 i) else 0) :=
  scatterAdd_read x idx upd k

/-- The reference's segment sum at class `k`: zero plus the class sum. -/
theorem v9_apply (x0 : (⟨S16777216, .f32⟩ : BufTy).Contents (Elt Ideal)) (x1 : (⟨S16777216, .i32⟩ : BufTy).Contents (Elt Ideal))
    (x2 : (⟨S1048576, .i32⟩ : BufTy).Contents (Elt Ideal)) (k : Fin 1000) :
    val_main_v9 (F := Ideal) x0 x1 x2 (ix1 k)
      = Ideal.ofBits .f32 0x00000000#32 + classSum x0 (val_main_v6 (F := Ideal) x1 x2) k.val := by
  unfold val_main_v9
  rw [scatterAdd_read_host, val_main_v7_apply, val_main_cst_apply]
  unfold classSum
  refine congrArg (fun z => Ideal.ofBits .f32 0x00000000#32 + z) ?_
  refine Finset.sum_congr rfl fun i _ => ?_
  have e : idx_main_v8 (ix2 i (0 : Fin 1)) = ix1 i := by
    funext a; match a with | ⟨0, _⟩ => rfl
  rw [val_main_v8_apply, e]
  unfold term
  rw [dif_pos i.isLt]

/-- The reference's result is the class means of the scores under the gathered class words. -/
theorem ref_eq (x0 : (⟨S16777216, .f32⟩ : BufTy).Contents (Elt Ideal)) (x1 : (⟨S16777216, .i32⟩ : BufTy).Contents (Elt Ideal))
    (x2 : (⟨S1048576, .i32⟩ : BufTy).Contents (Elt Ideal)) :
    val_main_v11 (F := Ideal) x0 x1 x2 = histMean x0 (val_main_v6 (F := Ideal) x1 x2) := by
  funext k
  obtain ⟨k, rfl⟩ : ∃ k' : Fin 1000, k = ix1 k' := ⟨k 0, eq_ix1 k⟩
  rw [val_main_v11_apply, val_main_v10_apply, val_main_cst_1_apply, v9_apply, Ideal.hostDivf_def]
  rfl

end Cert.Hist
end
-- ==== Proof.lean ====
/-
  Per-class means of scores routed through a two-level class table.

  Both programs first give every one of the 16777216 scores a class word: the class table read at
  the score's table index (a negative index counted from the table's end) — the same gather in
  both. The reference then scatters the scores onto a zero vector of 1000 classes by class word and
  divides by the table's length 1048576: class `k` is (0 + the sum of the scores whose class word,
  read signed, is `k`) / 1048576; a score whose word is negative or at least 1000 lands nowhere.

  The kernel builds the same sums as a histogram. It views scores and class words as 131072 rows of
  128 lanes, and its grid of 2 x 2048 points hands point `t` the rows `32 t … 32 t + 31`. A class
  word `w` is split as high part `w >> 7` (arithmetic) and low part `w & 127`; slot `(h, j)` of an
  8 x 128 accumulator collects, over the block, the scores whose high part is `h` (selected, else
  zero) times the indicator that the low part is `j`, contracted over the lanes and summed over the
  rows. For `h < 8`, `j < 128` the two tests hold together exactly when `w`, read signed, is
  `128 h + j`, so a slot collects exactly the scores of class `128 h + j`; negative words and words
  from 1024 on match no slot. Each core zeroes the accumulator at its first point, adds every
  point's block sums, and writes the accumulator out after its last point. The host adds the two
  cores' outputs onto zero, flattens the slots to 1024 classes, keeps the first 1000 and divides by
  1048576.

  On the extended reals addition is commutative and associative and `0 * x = 0`, `1 * x = x` hold
  for every `x`, so regrouping the 16777216 positions as cores x points x rows x lanes changes no
  sum, and both results are (0 + the class sum) / 1048576: no finiteness of the scores is used.

  Modules: SumSplit (a sum over a product range), Spec and Mean (the class sums and means and their
  regrouping by grid point), ClassBits (the split of a class word), ScatterRead and RefValue (the
  reference's scatter read at a class), Payload and Pieces (what one grid point computes and
  stores), Blocks (the blocks as positions of the flat arrays), Acc (the accumulator after every
  point, by induction), KernelValue (the result array, the host operations after the pass, the
  kernel's run read as the class means).
-/
import proofs.«410184_j70437463655137_2_alg».proof.Defs
import proofs.«410184_j70437463655137_2_alg».proof.Proof.Gen.Kernel
import proofs.«410184_j70437463655137_2_alg».proof.Proof.Gen.Kernel.Skeleton
import proofs.«410184_j70437463655137_2_alg».proof.Proof.Gen.Kernel.Launch
import proofs.«410184_j70437463655137_2_alg».proof.Proof.Gen.Kernel.Points
import proofs.«410184_j70437463655137_2_alg».proof.Proof.Gen.Kernel.Frame
import proofs.«410184_j70437463655137_2_alg».proof.Proof.Gen.KernelIdeal
import proofs.«410184_j70437463655137_2_alg».proof.Proof.Gen.KernelIdeal.Skeleton
import proofs.«410184_j70437463655137_2_alg».proof.Proof.Gen.KernelIdeal.Launch
import proofs.«410184_j70437463655137_2_alg».proof.Proof.Gen.KernelIdeal.Points
import proofs.«410184_j70437463655137_2_alg».proof.Proof.Gen.KernelIdeal.Frame
import proofs.«410184_j70437463655137_2_alg».proof.Proof.Gen.ReferenceIdeal
import proofs.«410184_j70437463655137_2_alg».proof.Proof.Gen.Pre_finite_inputs
import proofs.«410184_j70437463655137_2_alg».proof.Proof.Gen.ReferenceIdeal.Run
import proofs.«410184_j70437463655137_2_alg».proof.Proof.Gen.ReferenceIdeal.Read
import proofs.«410184_j70437463655137_2_alg».proof.Proof.KernelValue
import proofs.«410184_j70437463655137_2_alg».proof.Proof.RefValue
import Idealize.ShloMosaic.Adequacy
import Idealize.ShloMosaic.Init

noncomputable section

namespace Cert.Proof

open Idealize.ShloMosaic Idealize.SL.Sem

/-- The two programs' class words are one function of the table indices and the class table. -/
theorem classIds_eq (x1 : IVec Cert.KernelIdeal.S16777216 32) (x2 : IVec Cert.KernelIdeal.S1048576 32) :
    Cert.Hist.classIds x1 x2 = Cert.ReferenceIdeal.Read.val_main_v6 (F := Ideal) x1 x2 := rfl

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both runs end at the class means of the scores under the gathered class words. -/
theorem algebraic : Cert.algebraic_KernelIdeal_ReferenceIdeal := by
  intro m ρ m' ρ' _ hagree
  refine ⟨fun c => Cert.Hist.histMean (Cert.Hist.scores m c) (Cert.Hist.cids m c), Cert.Hist.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.Hist.ref_eq, (hagree c).1, (hagree c).2.1, (hagree c).2.2,
    ← classIds_eq]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
